-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S10000x2048 : Shape := ⟨2, ![10000, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S10000x2048 : S_.BroadcastsInDim S10000x2048 (![] : Fin 0 → Fin S10000x2048.rank)
  reducesTo_S10000x2048_S_d0_1 : S10000x2048.ReducesTo [0, 1] S_

variable [Facts]

def fn {F : FTy → Type} [FloatOps F] (main_arg0 : FVec F S8192x2048 .f32) (main_arg1 : FVec F S10000x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S10000x2048 .f32 := Host.absf main_arg1
  let main_cst_0 : FVec F S_ .f32 := constant S_ .f32 0x7F800000#32
  let main_v5 : FVec F S10000x2048 .f32 := broadcastInDim S10000x2048 ![] bcast_S_S10000x2048 main_cst_0
  let main_v6 : IVec S10000x2048 1 := cmpf .olt main_v4 main_v5
  let main_c_1 : IVec S_ 1 := constantI S_ 1 1#1
  let main_v7 : IVec S_ 1 := (fun x v => Host.reduce IntOp.andi x v reducesTo_S10000x2048_S_d0_1 h_S_) main_v6 main_c_1
  let main_v8 : IVec S_ 1 := andi main_v3 main_v7
  main_v8
-- ==== Kernel.lean ====
abbrev S8192x2048 : Shape := ⟨2, ![8192, 2048]⟩
abbrev S10000x2048 : Shape := ⟨2, ![10000, 2048]⟩
abbrev S_ : Shape := ⟨0, ![]⟩
abbrev S8192 : Shape := ⟨1, ![8192]⟩
abbrev S8192x1 : Shape := ⟨2, ![8192, 1]⟩
abbrev S10000 : Shape := ⟨1, ![10000]⟩
abbrev S10000x1 : Shape := ⟨2, ![10000, 1]⟩
abbrev S1x10000 : Shape := ⟨2, ![1, 10000]⟩
abbrev S8192x10000 : Shape := ⟨2, ![8192, 10000]⟩
abbrev S512x2048 : Shape := ⟨2, ![512, 2048]⟩
abbrev S1024x2048 : Shape := ⟨2, ![1024, 2048]⟩
abbrev S512x1 : Shape := ⟨2, ![512, 1]⟩
abbrev S1x1024 : Shape := ⟨2, ![1, 1024]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S10000x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S10000x2048, .f32⟩
  | .hbm, ⟨7, _⟩ => ⟨S_, .f32⟩
  | .hbm, ⟨8, _⟩ => ⟨S10000, .f32⟩
  | .hbm, ⟨9, _⟩ => ⟨S10000x1, .f32⟩
  | .hbm, ⟨10, _⟩ => ⟨S1x10000, .f32⟩
  | .hbm, ⟨11, _⟩ => ⟨S8192x10000, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S10000x2048_S10000_d1 : S10000x2048.ReducesTo [1] S10000
  bcast_S10000_S10000x1_0 : S10000.BroadcastsInDim S10000x1 (![0] : Fin 1 → Fin S10000x1.rank)
  transposes_S10000x1_S1x10000_1_0 : S10000x1.Transposes [1, 0] S1x10000
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x2048.size a < S10000x2048.size a
  hwx0_1 : ∀ i : grid0.Coords, EltTy.bits .f32 = 32 ∨ (Rect.unit (s := S10000x2048) (fun a => cc0_transform_1 i a * S1024x2048.size a) (fun a => (Pipeline.Clip.of (cc0_transform_1 i a) (S1024x2048.size a) (S10000x2048.size a)).extent (S1024x2048.size a)) fun a => Pipeline.Clip.inb (Pipeline.Clip.ok_of (hstart0_1 i a))).WholeWords (EltTy.packing .f32)
  hwxs0_1 : ∀ i : grid0.Coords, EltTy.bits .f32 = 32 ∨ (Rect.unit (s := S1024x2048) (fun _ => 0) (fun a => (Pipeline.Clip.of (cc0_transform_1 i a) (S1024x2048.size a) (S10000x2048.size a)).extent (S1024x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024.size a < S1x10000.size a
  hwx0_3 : ∀ i : grid0.Coords, EltTy.bits .f32 = 32 ∨ (Rect.unit (s := S1x10000) (fun a => cc0_transform_3 i a * S1x1024.size a) (fun a => (Pipeline.Clip.of (cc0_transform_3 i a) (S1x1024.size a) (S1x10000.size a)).extent (S1x1024.size a)) fun a => Pipeline.Clip.inb (Pipeline.Clip.ok_of (hstart0_3 i a))).WholeWords (EltTy.packing .f32)
  hwxs0_3 : ∀ i : grid0.Coords, EltTy.bits .f32 = 32 ∨ (Rect.unit (s := S1x1024) (fun _ => 0) (fun a => (Pipeline.Clip.of (cc0_transform_3 i a) (S1x1024.size a) (S1x10000.size a)).extent (S1x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x1024.size a < S8192x10000.size a
  hwx0_4 : ∀ i : grid0.Coords, EltTy.bits .f32 = 32 ∨ (Rect.unit (s := S8192x10000) (fun a => cc0_transform_4 i a * S512x1024.size a) (fun a => (Pipeline.Clip.of (cc0_transform_4 i a) (S512x1024.size a) (S8192x10000.size a)).extent (S512x1024.size a)) fun a => Pipeline.Clip.inb (Pipeline.Clip.ok_of (hstart0_4 i a))).WholeWords (EltTy.packing .f32)
  hwxs0_4 : ∀ i : grid0.Coords, EltTy.bits .f32 = 32 ∨ (Rect.unit (s := S512x1024) (fun _ => 0) (fun a => (Pipeline.Clip.of (cc0_transform_4 i a) (S512x1024.size a) (S8192x10000.size a)).extent (S512x1024.size a)) fun a => (Nat.zero_add _).trans_le (Pipeline.Clip.extent_le (Pipeline.Clip.ok_of (hstart0_4 i a)))).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v6) S1x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v7) S512x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S10000x2048 : Shape := ⟨2, ![10000, 2048]⟩
abbrev S_ : Shape := ⟨0, ![]⟩
abbrev S8192 : Shape := ⟨1, ![8192]⟩
abbrev S8192x1 : Shape := ⟨2, ![8192, 1]⟩
abbrev S10000 : Shape := ⟨1, ![10000]⟩
abbrev S8192x10000 : Shape := ⟨2, ![8192, 10000]⟩
abbrev S1x10000 : Shape := ⟨2, ![1, 10000]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S10000x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S10000x2048, .f32⟩
  | .hbm, ⟨7, _⟩ => ⟨S_, .f32⟩
  | .hbm, ⟨8, _⟩ => ⟨S10000, .f32⟩
  | .hbm, ⟨9, _⟩ => ⟨S8192x10000, .f32⟩
  | .hbm, ⟨10, _⟩ => ⟨S1x10000, .f32⟩
  | .hbm, ⟨11, _⟩ => ⟨S8192x10000, .f32⟩
  | .hbm, ⟨12, _⟩ => ⟨S8192x10000, .f32⟩
  | .hbm, ⟨13, _⟩ => ⟨S8192x10000, .f32⟩
  | .hbm, ⟨14, _⟩ => ⟨S_, .f32⟩
  | .hbm, ⟨15, _⟩ => ⟨S8192x10000, .f32⟩
  | .hbm, ⟨16, _⟩ => ⟨S8192x10000, .f32⟩
  | .hbm, ⟨17, _⟩ => ⟨S8192x10000, .f32⟩
  | .hbm, ⟨18, _⟩ => ⟨S8192x10000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S10000x2048_S10000_d1 : S10000x2048.ReducesTo [1] S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  bcast_S_S8192x10000 : S_.BroadcastsInDim S8192x10000 (![] : Fin 0 → Fin S8192x10000.rank)
  dot_S8192x2048_S10000x2048_S8192x10000_1_1_0_0_n_n_wf : DotDims.WF S8192x2048 S10000x2048 S8192x10000 [1] [1] [0] [0] [] []

variable [Facts₀]

def dot_S8192x2048_S10000x2048_S8192x10000_1_1_0_0_n_n : DotDims S8192x2048 S10000x2048 S8192x10000 where
  lhsContracting := [1]
  rhsContracting := [1]
  lhsNonContracting := [0]
  rhsNonContracting := [0]
  lhsBatch := []
  rhsBatch := []
  wf := dot_S8192x2048_S10000x2048_S8192x10000_1_1_0_0_n_n_wf

class Facts : Prop extends Facts₀ where

variable [Facts]
-- ==== Proof.KBody.lean ====
/-
  The word-level kernel's frame. The body makes five whole-buffer loads and one whole-buffer store, so it runs
  from ANY contents of its five staging buffers and leaves each holding something: nothing of the frame depends on
  what the buffers hold — in particular not on the rows past the end of the means array in the last mean block's
  buffer, which nothing names, nor on what the matrix unit makes of them. The proof data therefore constrain the
  staging contents by the relation that always holds; the two argument arrays are input windows of the pipeline,
  which it never writes.
-/
import proofs.«146393_j39298950758648_1_alg».proof.Proof.Gen.Kernel.Frame
import proofs.«146393_j39298950758648_1_alg».proof.Proof.Gen.Kernel.Skeleton
import Idealize.ShloMosaic.Lib.Pipeline.Value

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F]
local notation "𝕄" => MT nD τ sig Unit (Elt F) ℕ (UR sig nD τ) ℕ

/-- The kernel has no variant. -/
abbrev 𝒱₀ : Variants := Variants.none

/-- The whole-buffer rectangle's offsets are zero. -/
theorem off0 : (![0, 0] : Fin 2 → ℕ) = fun _ => 0 := funext fun a => by fin_cases a <;> rfl

/-- The rectangle of the one store: the whole score block. -/
abbrev rOut : Rect S512x1024 := Rect.unit (s := S512x1024) ![0, 0] S512x1024.size inb_S512x1024_S512x1024_0_0

/-- One store through the whole-buffer rectangle covers every index of the score block. -/
theorem cover_out (w : Vec F S512x1024 .f32) (y : S512x1024.Idx) :
    ∃ pc ∈ ([⟨rOut, w⟩] : List (View.Piece (Elt F) S512x1024 .f32)), y ∈ pc.1.set :=
  View.cover_of_tiled [⟨rOut, w⟩] S512x1024.size (by rfl) y

/-- The body on whole staging memrefs: the sample block `x0`, the mean block `x1`, the samples' squared norms `x2`
    (a column) and the means' (a row) are read whole, and the score block's buffer, whatever it held, is overwritten
    whole by the one payload `k0_pay1 x0 x1 x2 x3`; the four inputs are left as they were. -/
theorem sound_kernel (c : Dev nD) (i : grid0.Coords)
    (arg2 : Memref sig .tc .vmem S512x2048 .f32) (harg2 : arg2.IsWhole) (arg3 : Memref sig .tc .vmem S1024x2048 .f32) (harg3 : arg3.IsWhole)
    (arg4 : Memref sig .tc .vmem S512x1 .f32) (harg4 : arg4.IsWhole) (arg5 : Memref sig .tc .vmem S1x1024 .f32) (harg5 : arg5.IsWhole)
    (arg6 : Memref sig .tc .vmem S512x1024 .f32) (harg6 : arg6.IsWhole)
    (x0 : Vec F S512x2048 .f32) (x1 : Vec F S1024x2048 .f32) (x2 : Vec F S512x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 x0 x1 x2 x3)) -∗ K ⟨⟩))
      ⊢ wp frame (wpE (defs₀ (F := F)) 𝒱₀ c none) Set.univ (cc0__knn_kernel i arg2 harg2 arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  show View.read (Elt F) arg6.view (arg6.view.writes (Elt F) f4 [⟨rOut, _⟩]) = _
  rw [View.read_writes_eq_canon _ _ _ (cover_out _), View.canon_unit_zero off0, View.readAt_eq_ld, View.readAt_eq_ld,
    View.readAt_eq_ld, View.readAt_eq_ld, View.ld_unit_zero off0, View.ld_unit_zero off0, View.ld_unit_zero off0, View.ld_unit_zero off0]

/-! ## The frame: proof data that names nothing the body leaves -/

variable (m : (ℓ : Loc nD τ sig) → Buf (Elt F) ℓ) (ρ : Dev nD → PrngReg)

/-- Relational proof data of the one pipeline on core `c`: the arrays as the region finds them; of what the body
    leaves in a staging buffer nothing is said (every access of the body is of a whole buffer: nothing it does
    depends on a buffer's words); the class's invariant; nothing owed; full shares. -/
def rdats (c : Dev nD) : RDat τ (Elt F) Unit ℕ (UR sig nD τ) ℕ cfg0 c where
  A w := V m c (Pipeline.arrRef spec0 w)
  after _ _ _ _ := True
  Φ _ := ΦA spec0 c
  q _ := fullShare
  owed _ := 0

/-- The body at a point, whatever the five current buffers hold: it returns them holding something. -/
theorem sound_bodyR (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) 𝒱₀ c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X)
            ∗ (∃ X, ⌜(rdats m c).after 3 t (Y 3) X⌝ ∗ owns (c : Thread nD τ) (st0_3 t) fullShare X)
            ∗ (∃ X, ⌜(rdats m c).after 4 t (Y 4) X⌝ ∗ owns (c : Thread nD τ) (st0_4 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4⟩
  iapply (sound_kernel c _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists _; isplitr
    swap; · iexact H0
    ipureintro; trivial
  isplitl [H1]
  · iexists _; isplitr
    swap; · iexact H1
    ipureintro; trivial
  isplitl [H2]
  · iexists _; isplitr
    swap; · iexact H2
    ipureintro; trivial
  isplitl [H3]
  · iexists _; isplitr
    swap; · iexact H3
    ipureintro; trivial
  · iexists _; isplitr
    swap; · iexact H4
    ipureintro; trivial

/-- The library's relational body obligation, at every point. -/
theorem body_obligationR (c : Dev nD) : (rdats (F := F) m c).BodyObligation (defs₀ (F := F)) 𝒱₀ () Set.univ := fun t Y _ => by
  rw [bigSep_W0, bigSep_W0]
  exact sound_bodyR m c t Y

-- the launch theorem's implicit arguments are found by unifying its conclusion with this one, which takes
-- unfolding plain definitions in a metavariable's type
set_option backward.isDefEq.respectTransparency.types false in
/-- From any memory with zero counters every weakly fair execution of @main terminates, nothing faulting; each
    window's array ends at contents the relations allow — an input array, never written, as the region found it. -/
theorem run_mainR : θ_run defs (onTc (τ := τ) (main (F := F))) (s₀ m ρ) (Pipeline.RDat.FramePost cfg0 (rdats m) (V m)) :=
  Pipeline.RDat.θ_run_frame cfgs (0 : Fin 1) launch0 defs₀ 𝒱₀ (rdats m) m ρ main
    (hbody := body_obligationR m) (hshare := fun c => (rdats m c).share_full fun _ => rfl)
    (howed := fun _ _ => rfl) (V := V m) (hmain := hmain m 𝒱₀) (hA := fun _ _ => rfl) (hΦ := fun _ _ => rfl)

/-- THE FRAME, at any instance: the two argument arrays are windows 0 and 1, both inputs. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdats m c).ArrAt_in 0 rfl] at h0
    rw [(rdats m c).ArrAt_in 1 rfl] at h1
    exact ⟨h0.trans (V_main_arg0 m c), h1.trans (V_main_arg1 m c)⟩) (run_mainR m ρ)

end Cert.Kernel.Body

end
-- ==== Proof.KIBody.lean ====
/-
  The idealized kernel's body and its frame. The body makes five whole-buffer loads and one whole-buffer store:
  from the four input blocks `x0 … x3` it leaves the score block's buffer at the one payload
  `k0_pay1 x0 x1 x2 x3` and the inputs as they were (`sound_kernel`, which the value proof runs at exact proof
  data). For the frame alone nothing of the buffers' contents matters — in particular not the rows past the end of
  the means array in the last mean block's buffer, which nothing names: the proof data there constrain the staging
  contents by the relation that always holds, and the two argument arrays are input windows of the pipeline, which
  it never writes.
-/
import proofs.«146393_j39298950758648_1_alg».proof.Proof.Gen.KernelIdeal.Frame
import proofs.«146393_j39298950758648_1_alg».proof.Proof.Gen.KernelIdeal.Skeleton
import Idealize.ShloMosaic.Lib.Pipeline.Value

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F]
local notation "𝕄" => MT nD τ sig Unit (Elt F) ℕ (UR sig nD τ) ℕ

/-- The kernel has no variant. -/
abbrev 𝒱₀ : Variants := Variants.none

/-- The whole-buffer rectangle's offsets are zero. -/
theorem off0 : (![0, 0] : Fin 2 → ℕ) = fun _ => 0 := funext fun a => by fin_cases a <;> rfl

/-- The rectangle of the one store: the whole score block. -/
abbrev rOut : Rect S512x1024 := Rect.unit (s := S512x1024) ![0, 0] S512x1024.size inb_S512x1024_S512x1024_0_0

/-- One store through the whole-buffer rectangle covers every index of the score block. -/
theorem cover_out (w : Vec F S512x1024 .f32) (y : S512x1024.Idx) :
    ∃ pc ∈ ([⟨rOut, w⟩] : List (View.Piece (Elt F) S512x1024 .f32)), y ∈ pc.1.set :=
  View.cover_of_tiled [⟨rOut, w⟩] S512x1024.size (by rfl) y

/-- The body on whole staging memrefs: the sample block `x0`, the mean block `x1`, the samples' squared norms `x2`
    (a column) and the means' (a row) are read whole, and the score block's buffer, whatever it held, is overwritten
    whole by the one payload `k0_pay1 x0 x1 x2 x3`; the four inputs are left as they were. -/
theorem sound_kernel (c : Dev nD) (i : grid0.Coords)
    (arg2 : Memref sig .tc .vmem S512x2048 .f32) (harg2 : arg2.IsWhole) (arg3 : Memref sig .tc .vmem S1024x2048 .f32) (harg3 : arg3.IsWhole)
    (arg4 : Memref sig .tc .vmem S512x1 .f32) (harg4 : arg4.IsWhole) (arg5 : Memref sig .tc .vmem S1x1024 .f32) (harg5 : arg5.IsWhole)
    (arg6 : Memref sig .tc .vmem S512x1024 .f32) (harg6 : arg6.IsWhole)
    (x0 : Vec F S512x2048 .f32) (x1 : Vec F S1024x2048 .f32) (x2 : Vec F S512x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 x0 x1 x2 x3)) -∗ K ⟨⟩))
      ⊢ wp frame (wpE (defs₀ (F := F)) 𝒱₀ c none) Set.univ (cc0__knn_kernel i arg2 harg2 arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  show View.read (Elt F) arg6.view (arg6.view.writes (Elt F) f4 [⟨rOut, _⟩]) = _
  rw [View.read_writes_eq_canon _ _ _ (cover_out _), View.canon_unit_zero off0, View.readAt_eq_ld, View.readAt_eq_ld,
    View.readAt_eq_ld, View.readAt_eq_ld, View.ld_unit_zero off0, View.ld_unit_zero off0, View.ld_unit_zero off0, View.ld_unit_zero off0]

/-! ## The frame: proof data that names nothing the body leaves -/

variable (m : (ℓ : Loc nD τ sig) → Buf (Elt F) ℓ) (ρ : Dev nD → PrngReg)

/-- Relational proof data of the one pipeline on core `c`: the arrays as the region finds them; of what the body
    leaves in a staging buffer nothing is said (every access of the body is of a whole buffer: nothing it does
    depends on a buffer's words); the class's invariant; nothing owed; full shares. -/
def rdats (c : Dev nD) : RDat τ (Elt F) Unit ℕ (UR sig nD τ) ℕ cfg0 c where
  A w := V m c (Pipeline.arrRef spec0 w)
  after _ _ _ _ := True
  Φ _ := ΦA spec0 c
  q _ := fullShare
  owed _ := 0

/-- The body at a point, whatever the five current buffers hold: it returns them holding something. -/
theorem sound_bodyR (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) 𝒱₀ c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X)
            ∗ (∃ X, ⌜(rdats m c).after 3 t (Y 3) X⌝ ∗ owns (c : Thread nD τ) (st0_3 t) fullShare X)
            ∗ (∃ X, ⌜(rdats m c).after 4 t (Y 4) X⌝ ∗ owns (c : Thread nD τ) (st0_4 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4⟩
  iapply (sound_kernel c _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists _; isplitr
    swap; · iexact H0
    ipureintro; trivial
  isplitl [H1]
  · iexists _; isplitr
    swap; · iexact H1
    ipureintro; trivial
  isplitl [H2]
  · iexists _; isplitr
    swap; · iexact H2
    ipureintro; trivial
  isplitl [H3]
  · iexists _; isplitr
    swap; · iexact H3
    ipureintro; trivial
  · iexists _; isplitr
    swap; · iexact H4
    ipureintro; trivial

/-- The library's relational body obligation, at every point. -/
theorem body_obligationR (c : Dev nD) : (rdats (F := F) m c).BodyObligation (defs₀ (F := F)) 𝒱₀ () Set.univ := fun t Y _ => by
  rw [bigSep_W0, bigSep_W0]
  exact sound_bodyR m c t Y

-- the launch theorem's implicit arguments are found by unifying its conclusion with this one, which takes
-- unfolding plain definitions in a metavariable's type
set_option backward.isDefEq.respectTransparency.types false in
/-- From any memory with zero counters every weakly fair execution of @main terminates, nothing faulting; each
    window's array ends at contents the relations allow — an input array, never written, as the region found it. -/
theorem run_mainR : θ_run defs (onTc (τ := τ) (main (F := F))) (s₀ m ρ) (Pipeline.RDat.FramePost cfg0 (rdats m) (V m)) :=
  Pipeline.RDat.θ_run_frame cfgs (0 : Fin 1) launch0 defs₀ 𝒱₀ (rdats m) m ρ main
    (hbody := body_obligationR m) (hshare := fun c => (rdats m c).share_full fun _ => rfl)
    (howed := fun _ _ => rfl) (V := V m) (hmain := hmain m 𝒱₀) (hA := fun _ _ => rfl) (hΦ := fun _ _ => rfl)

/-- THE FRAME, at any instance: the two argument arrays are windows 0 and 1, both inputs. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdats m c).ArrAt_in 0 rfl] at h0
    rw [(rdats m c).ArrAt_in 1 rfl] at h1
    exact ⟨h0.trans (V_main_arg0 m c), h1.trans (V_main_arg1 m c)⟩) (run_mainR m ρ)

end Cert.KernelIdeal.Body

end
-- ==== Proof.Spec.lean ====
/-
  The score of a sample row against a class-mean row, in the two arrangements the two programs compute.

  For a sample row `u` and a mean row `v` of one length, over the extended reals:
  the kernel's arrangement is `2·⟨u, v⟩ − ‖u‖² − ‖v‖²`, the reference's `−((‖u‖² + ‖v‖²) − 2·⟨u, v⟩)`, the
  squared norms each taken as `0 + ∑ₖ wₖ·wₖ` (a sum started from the zero word) and `2` the single-precision
  word of two. On rows of real numbers the two are one number: negation distributes over a difference of
  reals (it does not over `+∞ − +∞`, which is why the rows must be finite).

  `score` / `scoreRef` are the two arrangements over whole arrays: entry `(b, c)` from row `b` of the samples
  and row `c` of the means.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The single-precision word of `2.0`, read as an extended real. -/
abbrev two : EReal := Ideal.ofBits .f32 0x40000000#32
/-- The single-precision zero word, read as an extended real. -/
abbrev zero : EReal := Ideal.ofBits .f32 0x00000000#32

/-- `⟨u, v⟩`. -/
def dotRow {K : Nat} (u v : Fin K → EReal) : EReal := ∑ k : Fin K, u k * v k
/-- `‖v‖²`, summed from the zero word. -/
def normSq {K : Nat} (v : Fin K → EReal) : EReal := zero + ∑ k : Fin K, v k * v k
/-- The kernel's arrangement. -/
def kerForm {K : Nat} (u v : Fin K → EReal) : EReal := two * dotRow u v - normSq u - normSq v
/-- The reference's arrangement. -/
def refForm {K : Nat} (u v : Fin K → EReal) : EReal := -((normSq u + normSq v) - two * dotRow u v)

/-- Row `r` of a matrix. -/
def rowOf {R K : Nat} (X : (⟨2, ![R, K]⟩ : Shape).Idx → EReal) (r : Fin R) : Fin K → EReal := fun k => X (ix2 r k)

/-- The kernel's arrangement, entry by entry over the whole arrays. -/
def score (X : (⟨2, ![8192, 2048]⟩ : Shape).Idx → EReal) (Mn : (⟨2, ![10000, 2048]⟩ : Shape).Idx → EReal) :
    (⟨2, ![8192, 10000]⟩ : Shape).Idx → EReal := fun i => kerForm (rowOf X (i 0)) (rowOf Mn (i 1))
/-- The reference's arrangement, entry by entry over the whole arrays. -/
def scoreRef (X : (⟨2, ![8192, 2048]⟩ : Shape).Idx → EReal) (Mn : (⟨2, ![10000, 2048]⟩ : Shape).Idx → EReal) :
    (⟨2, ![8192, 10000]⟩ : Shape).Idx → EReal := fun i => refForm (rowOf X (i 0)) (rowOf Mn (i 1))

/-- The word of two is the real number two. -/
private theorem two_eq : two = ((2 : ℝ) : EReal) := by
  simp [two, Ideal.ofBits, Ideal.ieee, -EReal.coe_mul]; norm_num

/-- The zero word is the real number zero. -/
private theorem zero_eq : zero = ((0 : ℝ) : EReal) := by
  show Ideal.ofBits .f32 0x00000000#32 = _
  rw [Ideal.ofBits_zero_f32, EReal.coe_zero]

/-- A finite sum of reals, taken in the extended reals, is the real sum. -/
private theorem sum_coe {K : Nat} (f : Fin K → ℝ) :
    (∑ k : Fin K, ((f k : ℝ) : EReal)) = ((∑ k : Fin K, f k : ℝ) : EReal) := by
  induction (Finset.univ : Finset (Fin K)) using Finset.induction_on with
  | empty => simp
  | insert a s ha ih => rw [Finset.sum_insert ha, Finset.sum_insert ha, ih, EReal.coe_add]

/-- On rows of real numbers the two arrangements are one number. -/
theorem kerForm_eq_refForm {K : Nat} (u v : Fin K → EReal) (hu : ∀ k, ∃ r : ℝ, u k = (r : EReal)) (hv : ∀ k, ∃ r : ℝ, v k = (r : EReal)) :
    kerForm u v = refForm u v := by
  -- name the real entries, so both sides are built from real numbers only
  choose a ha using hu
  choose b hb using hv
  obtain rfl : u = fun k => ((a k : ℝ) : EReal) := funext ha
  obtain rfl : v = fun k => ((b k : ℝ) : EReal) := funext hb
  -- every product, finite sum, sum, difference and negation of reals is the real one;
  -- what is left is an identity of real numbers: 2d − p − q = −((p + q) − 2d)
  simp only [kerForm, refForm, normSq, dotRow, two_eq, zero_eq, ← EReal.coe_mul, sum_coe,
    ← EReal.coe_add, ← EReal.coe_sub, ← EReal.coe_neg]
  congr 1
  ring

/-- Over arrays of real numbers the two whole-array functions are one. -/
theorem score_eq_scoreRef (X : (⟨2, ![8192, 2048]⟩ : Shape).Idx → EReal) (Mn : (⟨2, ![10000, 2048]⟩ : Shape).Idx → EReal)
    (hX : ∀ i, ∃ r : ℝ, X i = (r : EReal)) (hM : ∀ i, ∃ r : ℝ, Mn i = (r : EReal)) : score X Mn = scoreRef X Mn :=
  funext fun i => kerForm_eq_refForm _ _ (fun _ => hX _) (fun _ => hM _)

end Cert.Dist

end
-- ==== Proof.Payload.lean ====
/-
  The kernel body's one payload at an entry: for block row `p` and block column `q`,
  `2·⟨x0_p, x1_q⟩ − x2_p − x3_q` — the product block's entry is the sum over the feature axis of sample row `p`
  times mean row `q` (both operands contract their second axis), the two norm vectors are broadcast along the
  other axis.
-/
import proofs.«146393_j39298950758648_1_alg».proof.Proof.Gen.KernelIdeal.Skeleton
import proofs.«146393_j39298950758648_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx

/-! ## The product's operand indices, axis by axis

The left operand's axis 0 is its free axis (the entry's row), its axis 1 the contracted one; the right operand's
axis 0 is its free axis (the entry's column), its axis 1 the contracted one. -/

private theorem lhs_pay_0 (i : S512x1024.Idx) (c : dot_S512x2048_S1024x2048_S512x1024_1_1_0_0_n_n.contr.Idx) :
    (dot_S512x2048_S1024x2048_S512x1024_1_1_0_0_n_n.lhsIdx i c 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
private theorem lhs_pay_1 (i : S512x1024.Idx) (c : dot_S512x2048_S1024x2048_S512x1024_1_1_0_0_n_n.contr.Idx) :
    (dot_S512x2048_S1024x2048_S512x1024_1_1_0_0_n_n.lhsIdx i c 1).val = (c ⟨0, by decide⟩).val :=
  dot_S512x2048_S1024x2048_S512x1024_1_1_0_0_n_n.lhsIdx_val_of_single rfl i c
private theorem rhs_pay_0 (i : S512x1024.Idx) (c : dot_S512x2048_S1024x2048_S512x1024_1_1_0_0_n_n.contr.Idx) :
    (dot_S512x2048_S1024x2048_S512x1024_1_1_0_0_n_n.rhsIdx i c 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
private theorem rhs_pay_1 (i : S512x1024.Idx) (c : dot_S512x2048_S1024x2048_S512x1024_1_1_0_0_n_n.contr.Idx) :
    (dot_S512x2048_S1024x2048_S512x1024_1_1_0_0_n_n.rhsIdx i c 1).val = (c ⟨0, by decide⟩).val :=
  dot_S512x2048_S1024x2048_S512x1024_1_1_0_0_n_n.rhsIdx_val_of_single rfl i c

/-- The product block from a zero accumulator, at entry `(p, q)`: the sum over the feature axis of the left operand's
    row `p` times the right operand's row `q`. -/
private theorem matmul_entry (A : FVec Ideal S512x2048 .bf16) (B : FVec Ideal S1024x2048 .bf16) (p : Fin 512) (q : Fin 1024) :
    matmul (F := Ideal) dot_S512x2048_S1024x2048_S512x1024_1_1_0_0_n_n none A B (constant (F := Ideal) S512x1024 .f32 0x00000000#32) (ix2 p q)
      = ∑ k : Fin 2048, A (ix2 p k) * B (ix2 q k) := by
  show FloatOps.matmul dot_S512x2048_S1024x2048_S512x1024_1_1_0_0_n_n none A B (constant (F := Ideal) S512x1024 .f32 0x00000000#32) (ix2 p q) = _
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun a => Fin.ext (by
    match a with
    | ⟨0, _⟩ => exact lhs_pay_0 _ _
    | ⟨1, _⟩ => exact (lhs_pay_1 _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun a => Fin.ext (by
    match a with
    | ⟨0, _⟩ => exact rhs_pay_0 _ _
    | ⟨1, _⟩ => exact (rhs_pay_1 _ _).trans hk)
  rw [el, er]

/-- A column broadcast along the second axis reads the column at the entry's row. -/
private theorem col_entry (X2 : Vec Ideal S512x1 .f32) (p : Fin 512) (q : Fin 1024) :
    broadcastTo S512x1024 (shapeCast S512x1 X2 shapeCasts_S512x1_S512x1) broadcasts_S512x1_S512x1024 (ix2 p q) = X2 (ix2 p 0) := by
  rw [shapeCast_self]
  exact broadcastTo_apply _ broadcasts_S512x1_S512x1024 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

/-- A row broadcast along the first axis reads the row at the entry's column. -/
private theorem row_entry (X3 : Vec Ideal S1x1024 .f32) (p : Fin 512) (q : Fin 1024) :
    broadcastTo S512x1024 (shapeCast S1x1024 X3 shapeCasts_S1x1024_S1x1024) broadcasts_S1x1024_S512x1024 (ix2 p q) = X3 (ix2 0 q) := by
  rw [shapeCast_self]
  exact broadcastTo_apply _ broadcasts_S1x1024_S512x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The payload at block entry `(p, q)`, from the four loaded blocks. -/
theorem pay_apply (X0 : Vec Ideal S512x2048 .f32) (X1 : Vec Ideal S1024x2048 .f32) (X2 : Vec Ideal S512x1 .f32) (X3 : Vec Ideal S1x1024 .f32)
    (p : Fin 512) (q : Fin 1024) :
    k0_pay1 (F := Ideal) X0 X1 X2 X3 (ix2 p q)
      = Cert.Dist.two * Cert.Dist.dotRow (Cert.Dist.rowOf X0 p) (Cert.Dist.rowOf X1 q) - X2 (ix2 p 0) - X3 (ix2 0 q) := by
  unfold k0_pay1
  -- the outer operations are entrywise, the constant two is broadcast, the narrowing of the operands is the identity
  show Ideal.ofBits .f32 0x40000000#32
        * matmul (F := Ideal) dot_S512x2048_S1024x2048_S512x1024_1_1_0_0_n_n none (truncf .bf16 X0 bitsLt_bf16_f32) (truncf .bf16 X1 bitsLt_bf16_f32)
            (constant (F := Ideal) S512x1024 .f32 0x00000000#32) (ix2 p q)
      - broadcastTo S512x1024 (shapeCast S512x1 X2 shapeCasts_S512x1_S512x1) broadcasts_S512x1_S512x1024 (ix2 p q)
      - broadcastTo S512x1024 (shapeCast S1x1024 X3 shapeCasts_S1x1024_S1x1024) broadcasts_S1x1024_S512x1024 (ix2 p q) = _
  rw [matmul_entry, col_entry, row_entry]
  rfl

end Cert.KernelIdeal.Pay

end
-- ==== Proof.HostNorms.lean ====
/-
  The two norm vectors the kernel's program computes on the host before the region, read at an entry:
  the column of the samples' squared norms at row `b` is `0 + ∑ₖ x(b,k)·x(b,k)`, the row of the means' squared norms
  at column `c` is `0 + ∑ₖ m(c,k)·m(c,k)`.
-/
import proofs.«146393_j39298950758648_1_alg».proof.Proof.Gen.KernelIdeal.Frame
import proofs.«146393_j39298950758648_1_alg».proof.Proof.Spec
import Idealize.ShloMosaic.Lib.Pipeline.Value
import Idealize.ShloMosaic.Lib.ValueLayout
import Idealize.ShloMosaic.Lib.StableHlo.Run

noncomputable section

namespace Cert.KernelIdeal.HostNorms

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The samples' squared norms as the region finds them. -/
theorem V_v2_apply (c : Dev nD) (b : Fin 8192) :
    (V m c main_v2 : S8192x1.Idx → EReal) (ix2 b 0)
      = Cert.Dist.normSq (Cert.Dist.rowOf (m ((c : Thread nD τ).loc main_arg0) : S8192x2048.Idx → EReal) b) := by
  have e : (V m c main_v2 : S8192x1.Idx → EReal)
      = broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x2048_S8192_d1 h_S_) := by
    dsimp only [Gen.V, Gen.hostOps0]
    after_results
  rw [e]
  rw [broadcastInDim_apply _ bcast_S8192_S8192x1_0 _ (ix2 b 0) (ix1 b) (fun a => match a with
    | ⟨0, _⟩ => by show b.val = if (8192 : Nat) = 1 then 0 else b.val; rw [if_neg (by decide)])]
  simp only [Host.reduceAdd, Ideal.hostReduceAdd_def]
  rw [Ideal.hostReduceAdd_single reducesTo_S8192x2048_S8192_d1 (by decide)]
  simp only [Cert.Dist.normSq, Cert.Dist.rowOf, Cert.Dist.zero, mulf_apply]
  refine congrArg₂ (· + ·) rfl (Finset.sum_congr rfl fun k _ => ?_)
  -- the index with column `k` put back in is `(b, k)`
  have hi : ∀ i : S8192x2048.Idx, (i 0).val = b.val → (i 1).val = k.val → i = ix2 b k :=
    fun i h0 h1 => funext fun a => Fin.ext (by match a with | ⟨0, _⟩ => exact h0 | ⟨1, _⟩ => exact h1)
  exact congrArg₂ (· * ·) (congrArg _ (hi _ rfl rfl)) (congrArg _ (hi _ rfl rfl))

/-- The means' squared norms as the region finds them. -/
theorem V_v6_apply (c : Dev nD) (cc : Fin 10000) :
    (V m c main_v6 : S1x10000.Idx → EReal) (ix2 0 cc)
      = Cert.Dist.normSq (Cert.Dist.rowOf (m ((c : Thread nD τ).loc main_arg1) : S10000x2048.Idx → EReal) cc) := by
  have e : (V m c main_v6 : S1x10000.Idx → EReal)
      = transpose S1x10000 [1, 0] (broadcastInDim S10000x1 ![0] bcast_S10000_S10000x1_0
          (Host.reduceAdd (mulf (m ((c : Thread nD τ).loc main_arg1)) (m ((c : Thread nD τ).loc main_arg1)))
            (constant (F := Ideal) S_ .f32 0x00000000#32) reducesTo_S10000x2048_S10000_d1 h_S_))
          transposes_S10000x1_S1x10000_1_0 := by
    dsimp only [Gen.V, Gen.hostOps0]
    after_results
  rw [e]
  -- the transposed row at column `cc` is the column at row `cc`
  rw [transpose_apply [1, 0] _ transposes_S10000x1_S1x10000_1_0 (ix2 0 cc) (ix2 cc 0) (fun a => match a with
    | ⟨0, _⟩ => rfl
    | ⟨1, _⟩ => rfl)]
  rw [broadcastInDim_apply _ bcast_S10000_S10000x1_0 _ (ix2 cc 0) (ix1 cc) (fun a => match a with
    | ⟨0, _⟩ => by show cc.val = if (10000 : Nat) = 1 then 0 else cc.val; rw [if_neg (by decide)])]
  simp only [Host.reduceAdd, Ideal.hostReduceAdd_def]
  rw [Ideal.hostReduceAdd_single reducesTo_S10000x2048_S10000_d1 (by decide)]
  simp only [Cert.Dist.normSq, Cert.Dist.rowOf, Cert.Dist.zero, mulf_apply]
  refine congrArg₂ (· + ·) rfl (Finset.sum_congr rfl fun k _ => ?_)
  -- the index with column `k` put back in is `(cc, k)`
  have hi : ∀ i : S10000x2048.Idx, (i 0).val = cc.val → (i 1).val = k.val → i = ix2 cc k :=
    fun i h0 h1 => funext fun a => Fin.ext (by match a with | ⟨0, _⟩ => exact h0 | ⟨1, _⟩ => exact h1)
  exact congrArg₂ (· * ·) (congrArg _ (hi _ rfl rfl)) (congrArg _ (hi _ rfl rfl))

end Cert.KernelIdeal.HostNorms

end
-- ==== Proof.Score.lean ====
/-
  The idealized kernel's run with the score array NAMED: after the run the result array holds, at entry `(b, c)`,
  the kernel's arrangement `2·⟨x_b, m_c⟩ − ‖x_b‖² − ‖m_c‖²` of sample row `b` and mean row `c`.

  The grid has 10 × 16 points: the outer axis `j` walks the mean blocks (1024 rows of the 10000, so the tenth block
  overhangs the array by 240 rows), the inner axis `i` the sample blocks (512 rows of 8192). At point `(j, i)` the
  body multiplies sample block `i` by the transpose of mean block `j`, doubles it, and subtracts the samples' squared
  norms along rows and the means' along columns; the score block `(i, j)` is written back, cut at the array's last
  column in the tenth column block.

  What the body finds in the mean block's buffer is the block on its rows inside the array and, past them, words
  nothing names (the cut fetch's staging tail); likewise the mean norms' columns. Row `q` of the mean block enters
  only column `q` of the product — the axis that is cut is neither contracted nor summed over —, so on the columns
  inside the array the product, and with it the score block, is a function of the rows inside the array alone
  (`out_cut`); the columns past the array's end are never written back. The proof data therefore state the three
  overhanging windows' buffers on the part their transfers move only, and the score array ends, block by block, as
  `Dist.score` of the two argument arrays: every entry lies in the block of exactly the point
  `(c / 1024, b / 512)` (`cover`).

  The two norm vectors are the host's: `‖x_b‖² = 0 + ∑ₖ x(b,k)²`, `‖m_c‖² = 0 + ∑ₖ m(c,k)²`, read at an entry of the
  arrays the region finds.
-/
import proofs.«146393_j39298950758648_1_alg».proof.Proof.KIBody
import proofs.«146393_j39298950758648_1_alg».proof.Proof.Payload
import proofs.«146393_j39298950758648_1_alg».proof.Proof.HostNorms
import proofs.«146393_j39298950758648_1_alg».proof.Proof.Spec
import Idealize.ShloMosaic.Lib.Pipeline.Value

noncomputable section

namespace Cert.KernelIdeal.Score

open Cert.KernelIdeal Cert.KernelIdeal.Gen Cert.KernelIdeal.Body
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

local notation "𝕄" => MT nD τ sig Unit (Elt Ideal) ℕ (UR sig nD τ) ℕ

variable (m : (ℓ : Loc nD τ sig) → Buf (Elt Ideal) ℓ) (ρ : Dev nD → PrngReg)

/-- The score array, from the two argument arrays as the region finds them. -/
def GV (c : Dev nD) : Buf (Elt Ideal) ((c : Thread nD τ).loc main_v7) :=
  Cert.Dist.score (V m c main_arg0) (V m c main_arg1)

/-- The proof data of the one pipeline on core `c`. After the body at point `t`: the sample block's and the sample
    norms' buffers hold their blocks; the mean block's and the mean norms' buffers hold theirs on the part inside
    the array (past the array's end the obligation states nothing: the filler is zero); the score block's buffer
    holds, on the part inside the array, block `t` of the score array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => iblk m c 2 t
    | ⟨3, _⟩ => win0_3.fill (grid0.coords t) (fun _ => (0 : EReal)) (iblk m c 3 t)
    | ⟨4, _⟩ => win0_4.fill (grid0.coords t) (fun _ => (0 : EReal)) ((win0_4.blk t).view.read (Elt Ideal) (GV m c))
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = win0_3.fill (grid0.coords t) (fun _ => (0 : EReal)) (iblk m c 3 t) := by dsimp only [dats]
theorem after0_4 (c : Dev nD) (t : Fin cfg0.N) :
    (dats m 0 c).after 4 t = win0_4.fill (grid0.coords t) (fun _ => (0 : EReal)) ((win0_4.blk t).view.read (Elt Ideal) (GV m c)) := by
  dsimp only [dats]

/-! ## What the body finds -/

/-- The sample block's and the sample norms' buffers hold their blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- A mean block's cut depends on the point only through the block index. -/
theorem clip1_congr (t t' : Fin cfg0.N) (h : (cfg0.win 1).index t = (cfg0.win 1).index t') :
    (cfg0.win 1).clip (cfg0.grid.coords t) = (cfg0.win 1).clip (cfg0.grid.coords t') := by
  funext a
  show Pipeline.Clip.of (win0_1.index t a) _ _ = Pipeline.Clip.of (win0_1.index t' a) _ _
  rw [show win0_1.index t = win0_1.index t' from h]
theorem clip3_congr (t t' : Fin cfg0.N) (h : (cfg0.win 3).index t = (cfg0.win 3).index t') :
    (cfg0.win 3).clip (cfg0.grid.coords t) = (cfg0.win 3).clip (cfg0.grid.coords t') := by
  funext a
  show Pipeline.Clip.of (win0_3.index t a) _ _ = Pipeline.Clip.of (win0_3.index t' a) _ _
  rw [show win0_3.index t = win0_3.index t' from h]

/-- The mean block's buffer holds, at every point — fetched there or not: the block index moves only with the
    outer grid axis —, the block's part inside the array, and past it whatever the cut fetch left. -/
theorem before0_1 (c : Dev nD) (t : Fin cfg0.N) (d) :
    (dats m 0 c).before 1 t d = win0_1.fill (grid0.coords t) d (iblk m c 1 t) := by
  rw [(dats m 0 c).before_in_eq_fetched 1 rfl (fun _ => rfl) (clip1_congr) (fun t => by
    rw [after0_1]; exact win0_1.cut_fill _ _ _) t d]
  unfold Dat.fetched Dat.blockOf iblk; rfl

/-- The mean norms' buffer, likewise. -/
theorem before0_3 (c : Dev nD) (t : Fin cfg0.N) (d) :
    (dats m 0 c).before 3 t d = win0_3.fill (grid0.coords t) d (iblk m c 3 t) := by
  rw [(dats m 0 c).before_in_eq_fetched 3 rfl (fun _ => rfl) (clip3_congr) (fun t => by
    rw [after0_3]; exact win0_3.cut_fill _ _ _) t d]
  unfold Dat.fetched Dat.blockOf iblk; rfl

/-- The score block's buffer comes back from the previous point's write-back (or is untouched, at the first point):
    it holds words nothing names. -/
theorem before0_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-! ## The index maps and the cuts, decided over the grid -/

/-- The four input windows' block indices in terms of the score window's: the samples and their norms move with its
    row-block index, the means and their norms with its column-block index; every other index is zero. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2) :=
  (by decide +kernel : ∀ t : Fin grid0.N, _)

/-- The cuts: a mean block is cut on its rows, and a mean-norm block on its columns, exactly as the score block is on
    its columns; nothing else is cut. -/
theorem xsize_facts : ∀ t : Fin cfg0.N,
    win0_1.xsize (grid0.coords t) (0 : Fin 2) = win0_4.xsize (grid0.coords t) (1 : Fin 2)
    ∧ win0_1.xsize (grid0.coords t) (1 : Fin 2) = 2048
    ∧ win0_3.xsize (grid0.coords t) (0 : Fin 2) = 1
    ∧ win0_3.xsize (grid0.coords t) (1 : Fin 2) = win0_4.xsize (grid0.coords t) (1 : Fin 2)
    ∧ win0_4.xsize (grid0.coords t) (0 : Fin 2) = 512 :=
  (by decide +kernel : ∀ t : Fin grid0.N, _)

/-! ## The payload of the found buffers, on the part inside the array -/

/-- A filled buffer at an index of the moved part holds the fetched block's element there. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill; rw [dif_pos ((w.moved_iff i j).mpr h)]

/-- ON THE PART INSIDE THE ARRAY, the payload over what the body finds — the sample block, the mean block filled out
    past the array's end by anything, the two norm blocks likewise — is block `t` of the score array: entry
    `(p, q)` of the block reads sample row `512·i + p` and mean row `1024·j + q`, which for `q` inside the array is a row
    the fetch filled, and the two norms at those rows are the host's sums of squares. -/
theorem out_cut (c : Dev nD) (t : Fin cfg0.N) (d1 : S1024x2048.Idx → EReal) (d3 : S1x1024.Idx → EReal) :
    win0_4.cut (grid0.coords t)
        (k0_pay1 (F := Ideal) (iblk m c 0 t) (win0_1.fill (grid0.coords t) d1 (iblk m c 1 t)) (iblk m c 2 t)
          (win0_3.fill (grid0.coords t) d3 (iblk m c 3 t)))
      = (win0_4.blk t).view.read (Elt Ideal) (GV m c) := by
  obtain ⟨hi0, hi01, hi1, hi11, hi2, hi21, hi3, hi31⟩ := idx_facts t
  obtain ⟨hx1, hx11, hx3, hx31, hx4⟩ := xsize_facts t
  funext j
  have hj0 : (j 0).val < 512 := hx4 ▸ (j 0).isLt
  have hj1 : (j 1).val < win0_4.xsize (grid0.coords t) (1 : Fin 2) := (j 1).isLt
  have hj1' : (j 1).val < 1024 := lt_of_lt_of_le hj1 (win0_4.xsize_le _ _)
  have hx : win0_4.xinj (grid0.coords t) j = ix2 (⟨(j 0).val, hj0⟩ : Fin 512) (⟨(j 1).val, hj1'⟩ : Fin 1024) :=
    funext fun a => Fin.ext (by match a with | ⟨0, _⟩ => rfl | ⟨1, _⟩ => rfl)
  show k0_pay1 (F := Ideal) _ _ _ _ (win0_4.xinj (grid0.coords t) j) = GV m c ((win0_4.blk t).view.emb j)
  rw [hx, Cert.KernelIdeal.Pay.pay_apply]
  -- the four reads, each where the score block's index says
  have e0 : Cert.Dist.rowOf (iblk m c 0 t) (⟨(j 0).val, hj0⟩ : Fin 512)
      = Cert.Dist.rowOf (V m c main_arg0) (((win0_4.blk t).view.emb j) 0) := by
    funext k
    show V m c main_arg0 ((win0_0.blk t).view.emb (ix2 (⟨(j 0).val, hj0⟩ : Fin 512) k)) = V m c main_arg0 (ix2 (((win0_4.blk t).view.emb j) 0) k)
    refine congrArg (V m c main_arg0) (funext fun a => Fin.ext ?_)
    match a with
    | ⟨0, _⟩ => show win0_0.index t (0 : Fin 2) * 512 + 1 * (j 0).val = win0_4.index t (0 : Fin 2) * 512 + 1 * (j 0).val; rw [hi0]
    | ⟨1, _⟩ => show win0_0.index t (1 : Fin 2) * 2048 + 1 * k.val = k.val; omega
  have hmv1 (k : Fin 2048) : ∀ a, ((ix2 (⟨(j 1).val, hj1'⟩ : Fin 1024) k : S1024x2048.Idx) a).val < win0_1.xsize (grid0.coords t) a := fun a =>
    match a with
    | ⟨0, _⟩ => (show (j 1).val < win0_1.xsize (grid0.coords t) (0 : Fin 2) from lt_of_lt_of_eq hj1 hx1.symm)
    | ⟨1, _⟩ => (show k.val < win0_1.xsize (grid0.coords t) (1 : Fin 2) from lt_of_lt_of_eq k.isLt hx11.symm)
  have e1 : Cert.Dist.rowOf (win0_1.fill (grid0.coords t) d1 (iblk m c 1 t)) (⟨(j 1).val, hj1'⟩ : Fin 1024)
      = Cert.Dist.rowOf (V m c main_arg1) (((win0_4.blk t).view.emb j) 1) := by
    funext k
    show win0_1.fill (grid0.coords t) d1 (iblk m c 1 t) (ix2 (⟨(j 1).val, hj1'⟩ : Fin 1024) k) = V m c main_arg1 (ix2 (((win0_4.blk t).view.emb j) 1) k)
    rw [fill_apply_of_lt win0_1 (grid0.coords t) d1 (iblk m c 1 t) _ (hmv1 k)]
    show V m c main_arg1 ((win0_1.blk t).view.emb _) = _
    refine congrArg (V m c main_arg1) (funext fun a => Fin.ext ?_)
    match a with
    | ⟨0, _⟩ => show win0_1.index t (0 : Fin 2) * 1024 + 1 * (j 1).val = win0_4.index t (1 : Fin 2) * 1024 + 1 * (j 1).val; rw [hi1]
    | ⟨1, _⟩ => show win0_1.index t (1 : Fin 2) * 2048 + 1 * k.val = k.val; omega
  have e2 : (iblk m c 2 t : S512x1.Idx → EReal) (ix2 (⟨(j 0).val, hj0⟩ : Fin 512) 0)
      = Cert.Dist.normSq (Cert.Dist.rowOf (V m c main_arg0) (((win0_4.blk t).view.emb j) 0)) := by
    refine Eq.trans ?_ ((Cert.KernelIdeal.HostNorms.V_v2_apply m c (((win0_4.blk t).view.emb j) 0)).trans (by rw [V_main_arg0]))
    show V m c main_v2 ((win0_2.blk t).view.emb (ix2 (⟨(j 0).val, hj0⟩ : Fin 512) 0)) = V m c main_v2 (ix2 (((win0_4.blk t).view.emb j) 0) 0)
    refine congrArg (V m c main_v2) (funext fun a => Fin.ext ?_)
    match a with
    | ⟨0, _⟩ => show win0_2.index t (0 : Fin 2) * 512 + 1 * (j 0).val = win0_4.index t (0 : Fin 2) * 512 + 1 * (j 0).val; rw [hi2]
    | ⟨1, _⟩ => show win0_2.index t (1 : Fin 2) * 1 + 1 * 0 = 0; omega
  have hmv3 : ∀ a, ((ix2 (0 : Fin 1) (⟨(j 1).val, hj1'⟩ : Fin 1024) : S1x1024.Idx) a).val < win0_3.xsize (grid0.coords t) a := fun a =>
    match a with
    | ⟨0, _⟩ => (show 0 < win0_3.xsize (grid0.coords t) (0 : Fin 2) from lt_of_lt_of_eq Nat.one_pos hx3.symm)
    | ⟨1, _⟩ => (show (j 1).val < win0_3.xsize (grid0.coords t) (1 : Fin 2) from lt_of_lt_of_eq hj1 hx31.symm)
  have e3 : (win0_3.fill (grid0.coords t) d3 (iblk m c 3 t) : S1x1024.Idx → EReal) (ix2 (0 : Fin 1) (⟨(j 1).val, hj1'⟩ : Fin 1024))
      = Cert.Dist.normSq (Cert.Dist.rowOf (V m c main_arg1) (((win0_4.blk t).view.emb j) 1)) := by
    refine Eq.trans ?_ ((Cert.KernelIdeal.HostNorms.V_v6_apply m c (((win0_4.blk t).view.emb j) 1)).trans (by rw [V_main_arg1]))
    rw [fill_apply_of_lt win0_3 (grid0.coords t) d3 (iblk m c 3 t) _ hmv3]
    show V m c main_v6 ((win0_3.blk t).view.emb _) = V m c main_v6 (ix2 0 (((win0_4.blk t).view.emb j) 1))
    refine congrArg (V m c main_v6) (funext fun a => Fin.ext ?_)
    match a with
    | ⟨0, _⟩ => show win0_3.index t (0 : Fin 2) * 1 + 1 * 0 = 0; omega
    | ⟨1, _⟩ => show win0_3.index t (1 : Fin 2) * 1024 + 1 * (j 1).val = win0_4.index t (1 : Fin 2) * 1024 + 1 * (j 1).val; rw [hi31]
  rw [e0, e1, e2, e3]
  rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the two uncut inputs' buffers at their blocks; each buffer of a window whose blocks may
    overhang its array at SOMETHING that is the stated contents on the part inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point: it finds the blocks (`before0_W`), `sound_kernel` runs it, and what it leaves in the score
    block's buffer is, on the part inside the array, block `t` of the score array (`out_cut`). -/
theorem sound_body (c : Dev nD) (t : Fin cfg0.N) :
    bodyPre m c t ⊢ wp frame (wpE (defs₀ (F := Ideal)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel (F := Ideal) c _ _ _ _ _ _ _ _ _ _ _ (iblk m c 0 t) (win0_1.fill (grid0.coords t) d1 (iblk m c 1 t))
    (iblk m c 2 t) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    rw [show (cfg0.win 1).cut (cfg0.grid.coords t) (win0_1.fill (grid0.coords t) (fun _ => (0 : EReal)) (iblk m c 1 t)) = iblk m c 1 t
      from win0_1.cut_fill _ _ _]
    iexact H1
  isplitl [H2]; · iexact H2
  isplitl [H3]
  · iexists d3
    rw [show (cfg0.win 3).cut (cfg0.grid.coords t) (win0_3.fill (grid0.coords t) (fun _ => (0 : EReal)) (iblk m c 3 t)) = iblk m c 3 t
      from win0_3.cut_fill _ _ _]
    iexact H3
  · iexists (k0_pay1 (F := Ideal) (iblk m c 0 t) (win0_1.fill (grid0.coords t) d1 (iblk m c 1 t)) (iblk m c 2 t)
      (win0_3.fill (grid0.coords t) d3 (iblk m c 3 t)))
    rw [show (cfg0.win 4).fill (cfg0.grid.coords t) (k0_pay1 (F := Ideal) (iblk m c 0 t) (win0_1.fill (grid0.coords t) d1 (iblk m c 1 t)) (iblk m c 2 t)
          (win0_3.fill (grid0.coords t) d3 (iblk m c 3 t)))
        ((cfg0.win 4).cut (cfg0.grid.coords t) (win0_4.fill (grid0.coords t) (fun _ => (0 : EReal)) ((win0_4.blk t).view.read (Elt Ideal) (GV m c))))
        = k0_pay1 (F := Ideal) (iblk m c 0 t) (win0_1.fill (grid0.coords t) d1 (iblk m c 1 t)) (iblk m c 2 t) (win0_3.fill (grid0.coords t) d3 (iblk m c 3 t))
      from win0_4.fill_congr_cut _ ((out_cut m c t d1 d3).trans (win0_4.cut_fill _ _ _).symm)]
    iexact H4

/-- The library's body obligation, at every point, in the form that states a buffer of a window whose blocks may
    overhang only on the part its transfers move. -/
theorem body_obligation (c : Dev nD) : BodyObligationLoose (dats m 0 c) (defs₀ (F := Ideal)) 𝒱₀ () Set.univ := fun t => by
  rw [bigSep_W0, bigSep_W0]
  exact sound_body m c t

/-! ## The run and the score array -/

-- the launch theorem's implicit arguments are found by unifying its conclusion with this one, which takes
-- unfolding plain definitions in a metavariable's type
set_option backward.isDefEq.respectTransparency.types false in
/-- From any memory with zero counters every weakly fair execution of @main terminates, nothing faulting, every array
    of the pipeline at what the proof data compute and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ 𝒱₀ m ρ main
    (hbody := body_obligation m) (hshare := fun c => (dats m 0 c).share_full fun _ => rfl)
    (howed := fun _ _ => rfl) (V := V m) (hmain := hmain m 𝒱₀) (hA := fun _ _ => rfl) (hΦ := fun _ _ => rfl)

/-- What point `t` writes back — the part inside the array of what the body left — is block `t` of the score array. -/
theorem flushed_eq (c : Dev nD) (t : Fin cfg0.N) :
    (dats m 0 c).flushed 4 t = ((cfg0.win 4).blk t).view.read (Elt Ideal) (GV m c) := by
  show (cfg0.win 4).cut (grid0.coords t) ((dats m 0 c).after 4 t) = _
  rw [after0_4]; exact win0_4.cut_fill _ _ _

/-- An entry of the score array is in point `t`'s block iff on each axis its coordinate is among the block's
    coordinates inside the array. -/
theorem mem_blk (t : Fin cfg0.N) (i : S8192x10000.Idx) :
    i ∈ ((cfg0.win 4).blk t).view.set ↔ ∀ a : Fin 2, win0_4.index t a * S512x1024.size a ≤ (i a).val
      ∧ (i a).val < win0_4.index t a * S512x1024.size a + win0_4.xsize (grid0.coords t) a := by
  show i ∈ ((View.whole main_v7).slice (win0_4.rect t)).set ↔ _
  rw [View.set_slice_whole, Rect.mem_set_unit]
  exact Iff.rfl

/-- The score window's block index in closed form: the inner grid axis is the row block, the outer the column block;
    and a column block either lies inside the array or is cut exactly at its end. -/
theorem idx4_facts : ∀ t : Fin cfg0.N,
    win0_4.index t (0 : Fin 2) = t.val % 16 ∧ win0_4.index t (1 : Fin 2) = t.val / 16
    ∧ ((win0_4.xsize (grid0.coords t) (1 : Fin 2) = 1024 ∧ (win0_4.index t (1 : Fin 2) + 1) * 1024 ≤ 10000)
        ∨ win0_4.index t (1 : Fin 2) * 1024 + win0_4.xsize (grid0.coords t) (1 : Fin 2) = 10000) :=
  (by decide +kernel : ∀ t : Fin grid0.N, _)

/-- Every entry of the score array is in some point's block: row `b`, column `c` in that of the point with row block
    `b / 512` and column block `c / 1024`. -/
theorem cover (i : S8192x10000.Idx) : ∃ t : Fin cfg0.N, (cfg0.win 4).flush t = true ∧ i ∈ ((cfg0.win 4).blk t).view.set := by
  have hi0 : (i 0).val < 8192 := (i 0).isLt
  have hi1 : (i 1).val < 10000 := (i 1).isLt
  have hN : cfg0.N = 160 := N_0
  let t : Fin cfg0.N := ⟨(i 1).val / 1024 * 16 + (i 0).val / 512, by rw [hN]; omega⟩
  obtain ⟨q0, q1, hend⟩ := idx4_facts t
  obtain ⟨-, -, -, -, hx4⟩ := xsize_facts t
  have tv : t.val = (i 1).val / 1024 * 16 + (i 0).val / 512 := rfl
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + win0_4.xsize (grid0.coords t) (0 : Fin 2)
    rw [hx4]; omega
  | ⟨1, _⟩ =>
    show win0_4.index t (1 : Fin 2) * 1024 ≤ (i 1).val ∧ (i 1).val < win0_4.index t (1 : Fin 2) * 1024 + win0_4.xsize (grid0.coords t) (1 : Fin 2)
    rcases hend with ⟨h, _⟩ | h <;> omega

/-- THE SCORE ARRAY after the run. -/
theorem final (c : Dev nD) : (dats m 0 c).arrAt 4 cfg0.N = GV m c :=
  (dats m 0 c).arrAt_eq_of_cover 4 (GV m c) (fun t _ => flushed_eq m c t) cover

/-- The region finds the two argument arrays as launched. -/
theorem GV_eq (c : Dev nD) :
    GV m c = Cert.Dist.score (m ((c : Thread nD τ).loc main_arg0)) (m ((c : Thread nD τ).loc main_arg1)) := by
  unfold GV; rw [V_main_arg0, V_main_arg1]

/-- The idealized kernel's run, read: it terminates, faults nowhere, leaves the score array at the kernel's arrangement
    of the argument arrays, entry by entry, and the arguments unchanged. -/
theorem run : θ_run defs (onTc (τ := τ) (main (F := Ideal))) ⟨m, fun _ => 0, ρ⟩ fun r => ∀ c : Dev nD,
      r.2.mem ((c.tc : Thread nD τ).loc main_v7)
        = Cert.Dist.score (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 4).trans ((final m c).trans (GV_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Score

end
-- ==== Proof.RefSide.lean ====
/-
  The reference program read back as a function of its two argument arrays: entry `(b, c)` of its result is the
  reference's arrangement `−((‖x_b‖² + ‖m_c‖²) − 2·⟨x_b, m_c⟩)` of sample row `b` and mean row `c`.
-/
import proofs.«146393_j39298950758648_1_alg».proof.Defs
import proofs.«146393_j39298950758648_1_alg».proof.Proof.Gen.ReferenceIdeal.Run
import proofs.«146393_j39298950758648_1_alg».proof.Proof.Gen.ReferenceIdeal.Read
import proofs.«146393_j39298950758648_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's last stage, as a whole-array function of the arguments, is `Dist.scoreRef`. -/
theorem ref_is_scoreRef (x0 : (⟨S8192x2048, .f32⟩ : BufTy).Contents (Elt Ideal)) (x1 : (⟨S10000x2048, .f32⟩ : BufTy).Contents (Elt Ideal)) :
    val_main_v13 (F := Ideal) x0 x1 = Cert.Dist.scoreRef x0 x1 := by
  funext i
  -- the element each reduction and the contraction reads is element `k` of sample row `i 0` / mean row `i 1`
  have h1 : ∀ k : Fin 2048, idx_main_v1 (idx_main_v2 (idx_main_v7 i)) k = ix2 (i 0) k := fun k =>
    funext fun a => Fin.ext (by match a with | ⟨0, _⟩ => rfl | ⟨1, _⟩ => rfl)
  have h4 : ∀ k : Fin 2048, idx_main_v4 (idx_main_v6 (idx_main_v8 i)) k = ix2 (i 1) k := fun k =>
    funext fun a => Fin.ext (by match a with | ⟨0, _⟩ => rfl | ⟨1, _⟩ => rfl)
  have hl : ∀ k : Fin 2048, lidx_main_v5 i k = ix2 (i 0) k := fun k =>
    funext fun a => Fin.ext (by match a with | ⟨0, _⟩ => rfl | ⟨1, _⟩ => rfl)
  have hr : ∀ k : Fin 2048, ridx_main_v5 i k = ix2 (i 1) k := fun k =>
    funext fun a => Fin.ext (by match a with | ⟨0, _⟩ => rfl | ⟨1, _⟩ => rfl)
  -- read the last stage back to the arguments, one operation at a time, outermost first
  simp only [val_main_v13_apply, val_main_v12_apply, val_main_v9_apply, val_main_v11_apply, val_main_v7_apply,
    val_main_v8_apply, val_main_v10_apply, val_main_v2_apply, val_main_v6_apply, val_main_v1_apply,
    val_main_v4_apply, val_main_v5_apply, val_main_v0_apply, val_main_v3_apply, val_main_cst_apply,
    val_main_cst_0_apply, val_main_cst_1_apply, h1, h4, hl, hr,
    Cert.Dist.scoreRef, Cert.Dist.refForm, Cert.Dist.normSq, Cert.Dist.dotRow, Cert.Dist.rowOf,
    Ideal.mulf_def, Ideal.addf_def, Ideal.subf_def, Ideal.negf_def, Ideal.hostNegf_def, Ideal.ofBits_def]
  -- both sides are now the same expression in the entries of the two rows
  rfl

end Cert.ReferenceIdeal.RefValue

end
-- ==== Proof.Finite.lean ====
/-
  From the precondition to "every entry of both inputs is a real number".

  The precondition compares `|x|` with the single-precision `+∞` word at every entry of each input and takes the
  conjunction of all the comparisons; it is all ones exactly when every entry is strictly between `−∞` and `+∞`,
  that is, a real.
-/
import proofs.«146393_j39298950758648_1_alg».proof.Pre_finite_inputs
import proofs.«146393_j39298950758648_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Dist

open Idealize.ShloMosaic

/-- The single-precision word `0x7F800000` denotes `+∞`. -/
private theorem ofBits_inf : Ideal.ofBits .f32 0x7F800000#32 = (⊤ : EReal) := by
  simp [Ideal.ofBits, Ideal.ieee]

/-- An extended real whose absolute value `max x (-x)` is strictly below `+∞` is a real: `−∞` has absolute value
    `+∞`, and so does `+∞`, so neither is strictly below it. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- A one-bit word built from a Boolean is one exactly when the Boolean is true. -/
private theorem ofBool_eq_one {b : Bool} : BitVec.ofBool b = 1#1 ↔ b = true := by cases b <;> decide

/-- One entry of the comparison mask `|x| < +∞ word` being one says that entry of `x` is a real: the broadcast
    scalar reads `+∞` at every entry, the absolute value is `max x (-x)`, and the ordered less-than is the strict
    order of the extended reals. -/
private theorem real_of_mask {s : Shape} (x : FVec Ideal s .f32) (hb : (⟨0, ![]⟩ : Shape).BroadcastsInDim s ![])
    (i : s.Idx)
    (h : cmpf .olt (Host.absf x) (broadcastInDim s ![] hb (constant (F := Ideal) ⟨0, ![]⟩ .f32 0x7F800000#32)) i = 1#1) :
    ∃ r : ℝ, x i = (r : EReal) := by
  apply real_of_abs_lt_top
  have hc : broadcastInDim s ![] hb (constant (F := Ideal) ⟨0, ![]⟩ .f32 0x7F800000#32) i = (⊤ : EReal) := by
    unfold broadcastInDim constant
    exact ofBits_inf
  rw [ValueIdx.cmpf_apply, hc] at h
  change Ideal.cmp .olt (max (x i) (-(x i))) ⊤ = 1#1 at h
  simpa [Ideal.cmp, ofBool_eq_one] using h

/-- If the printed precondition is all ones on two arrays of extended reals, every entry of both is a real. -/
theorem real_of_pre [Cert.Pre_finite_inputs.Facts]
    (x0 : FVec Ideal Cert.Pre_finite_inputs.S8192x2048 .f32) (x1 : FVec Ideal Cert.Pre_finite_inputs.S10000x2048 .f32)
    (h : Cert.Pre_finite_inputs.fn (F := Ideal) x0 x1 = fun _ => 1#1) :
    (∀ i, ∃ r : ℝ, x0 i = (r : EReal)) ∧ (∀ i, ∃ r : ℝ, x1 i = (r : EReal)) := by
  -- the result has one index; there it is the conjunction of the two all-entry reductions
  have h0 := congrFun h ValueIdx.ix0
  dsimp only [Cert.Pre_finite_inputs.fn] at h0
  haveI : Subsingleton Cert.Pre_finite_inputs.S_.Idx := ⟨fun a b => funext fun d => d.elim0⟩
  obtain ⟨ha, hb⟩ := IntOp.andi_eq_one.1 h0
  -- a conjunction over all entries that came out one met a one at every entry of its mask
  exact ⟨fun i => real_of_mask x0 _ i (Host.reduce_andi_all _ _ _ _ _ ha i),
    fun i => real_of_mask x1 _ i (Host.reduce_andi_all _ _ _ _ _ hb i)⟩

end Cert.Dist

end
-- ==== Proof.lean ====
/-
  The certificate of the negative squared distance from each of 8192 samples to each of 10000 class means
  (2048 features), the kernel tiled 512 × 1024 over a grid of 10 × 16 points, against the plain array program.

  Both idealized programs compute, at entry `(b, c)`, a combination of the three numbers `⟨x_b, m_c⟩`, `‖x_b‖²` and
  `‖m_c‖²`: the kernel `2·⟨x_b, m_c⟩ − ‖x_b‖² − ‖m_c‖²` (the product block by the matrix unit into a zero
  accumulator, over operands whose change of format is the identity on the extended reals; the norms summed on the
  host before the region), the reference `−((‖x_b‖² + ‖m_c‖²) − 2·⟨x_b, m_c⟩)`. Over the extended reals the two
  differ where a norm or the product is infinite (`−(+∞ − +∞)` against `+∞ − +∞` regrouped); under the precondition
  every input entry is a real, so are the three numbers, and the two arrangements agree by the ring laws of ℝ.

  * the frames of the two kernel programs: the body's accesses are all of whole staging buffers, so it runs from
    any contents (Proof/KBody.lean, Proof/KIBody.lean); the reference's frame is its run with the result dropped;
  * `preserves`: the idealization rewrote nothing;
  * `algebraic`: the kernel's run with the score array named (Proof/Score.lean, over Proof/Payload.lean and
    Proof/HostNorms.lean), the reference's run read back (Proof/RefSide.lean), finiteness from the precondition
    (Proof/Finite.lean) and the law joining the two arrangements (Proof/Spec.lean).
-/
import proofs.«146393_j39298950758648_1_alg».proof.Defs
import proofs.«146393_j39298950758648_1_alg».proof.Proof.Gen.Kernel
import proofs.«146393_j39298950758648_1_alg».proof.Proof.Gen.KernelIdeal
import proofs.«146393_j39298950758648_1_alg».proof.Proof.Gen.ReferenceIdeal
import proofs.«146393_j39298950758648_1_alg».proof.Proof.Gen.Pre_finite_inputs
import proofs.«146393_j39298950758648_1_alg».proof.Proof.Gen.ReferenceIdeal.Run
import proofs.«146393_j39298950758648_1_alg».proof.Proof.Gen.ReferenceIdeal.Read
import proofs.«146393_j39298950758648_1_alg».proof.Proof.KBody
import proofs.«146393_j39298950758648_1_alg».proof.Proof.KIBody
import proofs.«146393_j39298950758648_1_alg».proof.Proof.Score
import proofs.«146393_j39298950758648_1_alg».proof.Proof.RefSide
import proofs.«146393_j39298950758648_1_alg».proof.Proof.Finite
import proofs.«146393_j39298950758648_1_alg».proof.Proof.Spec
import Idealize.ShloMosaic.Adequacy
import Idealize.ShloMosaic.Init

noncomputable section

namespace Cert.Proof

open Idealize.ShloMosaic Idealize.ShloMosaic.TcCoe Idealize.SL.Sem

/-- The word-level kernel runs and leaves its two arguments unchanged. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, all of whose entries are reals, both programs end with the score
    array `Dist.score` of the arguments: the kernel by its run, the reference because its arrangement
    `Dist.scoreRef` is the same number at every entry. -/
theorem algebraic : Cert.algebraic_KernelIdeal_ReferenceIdeal := by
  intro m ρ m' ρ' hpre hagree
  refine ⟨fun c => Cert.Dist.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Score.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.ref_is_scoreRef,
    (hagree c).1, (hagree c).2]
  obtain ⟨h0, h1⟩ := Cert.Dist.real_of_pre _ _ (hpre c)
  exact (Cert.Dist.score_eq_scoreRef _ _ h0 h1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
